-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x4096x1 : Shape := ⟨3, ![128, 4096, 1]⟩
abbrev S100002 : Shape := ⟨1, ![100002]⟩
abbrev S4096x128 : Shape := ⟨2, ![4096, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S100002 : S_.BroadcastsInDim S100002 (![] : Fin 0 → Fin S100002.rank)
  reducesTo_S100002_S_d0 : S100002.ReducesTo [0] S_

variable [Facts]

def fn {F : FTy → Type} [FloatOps F] (main_arg0 : IVec S128x4096x1 32) (main_arg1 : IVec S100002 32) (main_arg2 : FVec F S4096x128 .f32) : IVec S_ 1 :=
  let main_v0 : FVec F S4096x128 .f32 := Host.absf main_arg2
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_c_0 : IVec S_ 32 := constantI S_ 32 0#32
  let main_v4 : IVec S100002 32 := broadcastInDim S100002 ![] bcast_S_S100002 main_c_0
  let main_v5 : IVec S100002 1 := cmpi .sge main_arg1 main_v4
  let main_c_1 : IVec S_ 32 := constantI S_ 32 4096#32
  let main_v6 : IVec S100002 32 := broadcastInDim S100002 ![] bcast_S_S100002 main_c_1
  let main_v7 : IVec S100002 1 := cmpi .slt main_arg1 main_v6
  let main_v8 : IVec S100002 1 := andi main_v5 main_v7
  let main_c_2 : IVec S_ 1 := constantI S_ 1 1#1
  let main_v9 : IVec S_ 1 := (fun x v => Host.reduce IntOp.andi x v reducesTo_S100002_S_d0 h_S_) main_v8 main_c_2
  let main_v10 : IVec S_ 1 := andi main_v3 main_v9
  main_v10
-- ==== Kernel.lean ====
abbrev S128x4096x1 : Shape := ⟨3, ![128, 4096, 1]⟩
abbrev S100002 : Shape := ⟨1, ![100002]⟩
abbrev S4096x128 : Shape := ⟨2, ![4096, 128]⟩
abbrev S128x4096 : Shape := ⟨2, ![128, 4096]⟩
abbrev S_ : Shape := ⟨0, ![]⟩
abbrev S1x524288 : Shape := ⟨2, ![1, 524288]⟩
abbrev S4096 : Shape := ⟨1, ![4096]⟩
abbrev S4096x1 : Shape := ⟨2, ![4096, 1]⟩
abbrev S524288x128 : Shape := ⟨2, ![524288, 128]⟩
abbrev S1x1024 : Shape := ⟨2, ![1, 1024]⟩
abbrev S1024x128 : Shape := ⟨2, ![1024, 128]⟩
abbrev S4096x1024 : Shape := ⟨2, ![4096, 1024]⟩
abbrev S128x1024 : Shape := ⟨2, ![128, 1024]⟩
abbrev S128x4096x128 : Shape := ⟨3, ![128, 4096, 128]⟩

abbrev nBuf : Space → Nat
  | .hbm => 31
  | .vmem => 7
  | .smem => 0
  | _ => 0

abbrev bufTy : (tb : Table) → Fin (tcTables nBuf tb) → BufTy
  | .hbm, ⟨0, _⟩ => ⟨S128x4096x1, .i32⟩
  | .hbm, ⟨1, _⟩ => ⟨S100002, .i32⟩
  | .hbm, ⟨2, _⟩ => ⟨S4096x128, .f32⟩
  | .hbm, ⟨3, _⟩ => ⟨S128x4096, .i32⟩
  | .hbm, ⟨4, _⟩ => ⟨S_, .i32⟩
  | .hbm, ⟨5, _⟩ => ⟨S128x4096, .i32⟩
  | .hbm, ⟨6, _⟩ => ⟨S128x4096, .i1⟩
  | .hbm, ⟨7, _⟩ => ⟨S_, .i32⟩
  | .hbm, ⟨8, _⟩ => ⟨S128x4096, .i32⟩
  | .hbm, ⟨9, _⟩ => ⟨S128x4096, .i32⟩
  | .hbm, ⟨10, _⟩ => ⟨S128x4096, .i32⟩
  | .hbm, ⟨11, _⟩ => ⟨S128x4096x1, .i32⟩
  | .hbm, ⟨12, _⟩ => ⟨S128x4096, .i32⟩
  | .hbm, ⟨13, _⟩ => ⟨S_, .i32⟩
  | .hbm, ⟨14, _⟩ => ⟨S128x4096, .i32⟩
  | .hbm, ⟨15, _⟩ => ⟨S128x4096, .i1⟩
  | .hbm, ⟨16, _⟩ => ⟨S_, .i32⟩
  | .hbm, ⟨17, _⟩ => ⟨S_, .i32⟩
  | .hbm, ⟨18, _⟩ => ⟨S128x4096, .i32⟩
  | .hbm, ⟨19, _⟩ => ⟨S128x4096, .i32⟩
  | .hbm, ⟨20, _⟩ => ⟨S1x524288, .i32⟩
  | .hbm, ⟨21, _⟩ => ⟨S4096, .i32⟩
  | .hbm, ⟨22, _⟩ => ⟨S4096x1, .i32⟩
  | .hbm, ⟨23, _⟩ => ⟨S4096x128, .bf16⟩
  | .hbm, ⟨24, _⟩ => ⟨S4096x128, .f32⟩
  | .hbm, ⟨25, _⟩ => ⟨S4096x128, .f32⟩
  | .hbm, ⟨26, _⟩ => ⟨S4096x128, .bf16⟩
  | .hbm, ⟨27, _⟩ => ⟨S128x4096, .bf16⟩
  | .hbm, ⟨28, _⟩ => ⟨S128x4096, .bf16⟩
  | .hbm, ⟨29, _⟩ => ⟨S524288x128, .f32⟩
  | .hbm, ⟨30, _⟩ => ⟨S128x4096x128, .f32⟩
  | .local _ .vmem, ⟨0, _⟩ => ⟨S1x1024, .i32⟩
  | .local _ .vmem, ⟨1, _⟩ => ⟨S1x1024, .i32⟩
  | .local _ .vmem, ⟨2, _⟩ => ⟨S4096x1, .i32⟩
  | .local _ .vmem, ⟨3, _⟩ => ⟨S128x4096, .bf16⟩
  | .local _ .vmem, ⟨4, _⟩ => ⟨S128x4096, .bf16⟩
  | .local _ .vmem, ⟨5, _⟩ => ⟨S1024x128, .f32⟩
  | .local _ .vmem, ⟨6, _⟩ => ⟨S1024x128, .f32⟩
  | _, _ => ⟨S128x4096x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_call0_v0 : Ref sig .tc := ⟨.hbm, 17, rfl⟩
abbrev main_call0_v1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128x4096x1_S128x4096 : S128x4096x1.ShapeCasts S128x4096
  bcast_S_S128x4096 : S_.BroadcastsInDim S128x4096 (![] : Fin 0 → Fin S128x4096.rank)
  bcast_S128x4096_S128x4096x1_0_1 : S128x4096.BroadcastsInDim S128x4096x1 (![0, 1] : Fin 2 → Fin S128x4096x1.rank)
  shapeCasts_S128x4096_S1x524288 : S128x4096.ShapeCasts S1x524288
  shapeCasts_S4096_S4096x1 : S4096.ShapeCasts S4096x1
  bitsLt_bf16_f32 : FTy.bits .bf16 < FTy.bits .f32
  transposes_S4096x128_S128x4096_1_0 : S4096x128.Transposes [1, 0] S128x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x1024 : S4096x1.Broadcasts S4096x1024
  broadcasts_S1x1024_S4096x1024 : S1x1024.Broadcasts S4096x1024
  natLt_1_32 : 1 < 32
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  transposes_S128x1024_p1_0_S1024x128 : S128x1024.Transposes [1, 0] S1024x128
  inb_S1024x128_S1024x128_0_0 : ∀ a, (![0, 0] : Fin 2 → Nat) a + S1024x128.size a ≤ S1024x128.size a
  h_S1024x128 : 0 < S1024x128.numel
  shapeCasts_S524288x128_S128x4096x128 : S524288x128.ShapeCasts S128x4096x128
  gather_S100002_S128x4096x1_S128x4096_n_0_n_n_0_2_1_wf : GatherDims.WF S100002 S128x4096x1 S128x4096 [] [0] [] [0] [] 2 ![1]
  dot_S128x4096_S4096x1024_S128x1024_1_0_0_1_n_n_wf : DotDims.WF S128x4096 S4096x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x524288.size a
  hwx0_0 : ∀ i : grid0.Coords, EltTy.bits .i32 = 32 ∨ (Rect.block (s := S1x524288) S1x1024.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S4096x1.size a
  hwx0_1 : ∀ i : grid0.Coords, EltTy.bits .i32 = 32 ∨ (Rect.block (s := S4096x1) S4096x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S128x4096.size a
  hwx0_2 : ∀ i : grid0.Coords, EltTy.bits .bf16 = 32 ∨ (Rect.block (s := S128x4096) S128x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S128x4096.size a
  hwx0_3 : ∀ i : grid0.Coords, EltTy.bits .bf16 = 32 ∨ (Rect.block (s := S128x4096) S128x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S524288x128.size a
  hwx0_4 : ∀ i : grid0.Coords, EltTy.bits .f32 = 32 ∨ (Rect.block (s := S524288x128) S1024x128.size (cc0_transform_4 i) (hinb0_4 i)).WholeWords (EltTy.packing .f32)

variable [Facts₀]

def gather_S100002_S128x4096x1_S128x4096_n_0_n_n_0_2_1 : GatherDims S100002 S128x4096x1 S128x4096 where
  offsetDims := []
  collapsedSliceDims := [0]
  operandBatchingDims := []
  startIndicesBatchingDims := []
  startIndexMap := [0]
  indexVectorDim := 2
  sliceSizes := ![1]
  wf := gather_S100002_S128x4096x1_S128x4096_n_0_n_n_0_2_1_wf
def dot_S128x4096_S4096x1024_S128x1024_1_0_0_1_n_n : DotDims S128x4096 S4096x1024 S128x1024 where
  lhsContracting := [1]
  rhsContracting := [0]
  lhsNonContracting := [0]
  rhsNonContracting := [1]
  lhsBatch := []
  rhsBatch := []
  wf := dot_S128x4096_S4096x1024_S128x1024_1_0_0_1_n_n_wf

abbrev win0_0 : Pipeline.Window sig grid0 :=
  Pipeline.Window.ofSpec (Memref.whole main_v11) S1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4096x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S128x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S128x4096x1 : Shape := ⟨3, ![128, 4096, 1]⟩
abbrev S100002 : Shape := ⟨1, ![100002]⟩
abbrev S4096x128 : Shape := ⟨2, ![4096, 128]⟩
abbrev S128x4096 : Shape := ⟨2, ![128, 4096]⟩
abbrev S_ : Shape := ⟨0, ![]⟩
abbrev S128x4096x128 : Shape := ⟨3, ![128, 4096, 128]⟩

abbrev nBuf : Space → Nat
  | .hbm => 30
  | .vmem => 0
  | .smem => 0
  | _ => 0

abbrev bufTy : (tb : Table) → Fin (tcTables nBuf tb) → BufTy
  | .hbm, ⟨0, _⟩ => ⟨S128x4096x1, .i32⟩
  | .hbm, ⟨1, _⟩ => ⟨S100002, .i32⟩
  | .hbm, ⟨2, _⟩ => ⟨S4096x128, .f32⟩
  | .hbm, ⟨3, _⟩ => ⟨S128x4096, .i32⟩
  | .hbm, ⟨4, _⟩ => ⟨S_, .i32⟩
  | .hbm, ⟨5, _⟩ => ⟨S128x4096, .i32⟩
  | .hbm, ⟨6, _⟩ => ⟨S128x4096, .i1⟩
  | .hbm, ⟨7, _⟩ => ⟨S_, .i32⟩
  | .hbm, ⟨8, _⟩ => ⟨S128x4096, .i32⟩
  | .hbm, ⟨9, _⟩ => ⟨S128x4096, .i32⟩
  | .hbm, ⟨10, _⟩ => ⟨S128x4096, .i32⟩
  | .hbm, ⟨11, _⟩ => ⟨S128x4096x1, .i32⟩
  | .hbm, ⟨12, _⟩ => ⟨S128x4096, .i32⟩
  | .hbm, ⟨13, _⟩ => ⟨S_, .i32⟩
  | .hbm, ⟨14, _⟩ => ⟨S128x4096, .i32⟩
  | .hbm, ⟨15, _⟩ => ⟨S128x4096, .i1⟩
  | .hbm, ⟨16, _⟩ => ⟨S_, .i32⟩
  | .hbm, ⟨17, _⟩ => ⟨S128x4096, .i32⟩
  | .hbm, ⟨18, _⟩ => ⟨S128x4096, .i32⟩
  | .hbm, ⟨19, _⟩ => ⟨S128x4096, .i32⟩
  | .hbm, ⟨20, _⟩ => ⟨S128x4096x1, .i32⟩
  | .hbm, ⟨21, _⟩ => ⟨S128x4096x128, .f32⟩
  | .hbm, ⟨22, _⟩ => ⟨S_, .i32⟩
  | .hbm, ⟨23, _⟩ => ⟨S128x4096, .i32⟩
  | .hbm, ⟨24, _⟩ => ⟨S128x4096, .i1⟩
  | .hbm, ⟨25, _⟩ => ⟨S128x4096x1, .i1⟩
  | .hbm, ⟨26, _⟩ => ⟨S_, .f32⟩
  | .hbm, ⟨27, _⟩ => ⟨S128x4096x128, .i1⟩
  | .hbm, ⟨28, _⟩ => ⟨S128x4096x128, .f32⟩
  | .hbm, ⟨29, _⟩ => ⟨S128x4096x128, .f32⟩
  | _, _ => ⟨S128x4096x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_call0_v0 : Ref sig .tc := ⟨.hbm, 27, rfl⟩
abbrev main_call0_v1 : Ref sig .tc := ⟨.hbm, 28, rfl⟩
abbrev main_v18 : Ref sig .tc := ⟨.hbm, 29, rfl⟩

abbrev nD : Nat := 1
abbrev τ : Topo := Topo.v7x

variable {F : FTy → Type} [FloatOps F]

class Facts₀ : Prop where
  shapeCasts_S128x4096x1_S128x4096 : S128x4096x1.ShapeCasts S128x4096
  bcast_S_S128x4096 : S_.BroadcastsInDim S128x4096 (![] : Fin 0 → Fin S128x4096.rank)
  bcast_S128x4096_S128x4096x1_0_1 : S128x4096.BroadcastsInDim S128x4096x1 (![0, 1] : Fin 2 → Fin S128x4096x1.rank)
  bcast_S128x4096x1_S128x4096x128_0_1_2 : S128x4096x1.BroadcastsInDim S128x4096x128 (![0, 1, 2] : Fin 3 → Fin S128x4096x128.rank)
  bcast_S_S128x4096x128 : S_.BroadcastsInDim S128x4096x128 (![] : Fin 0 → Fin S128x4096x128.rank)
  gather_S100002_S128x4096x1_S128x4096_n_0_n_n_0_2_1_wf : GatherDims.WF S100002 S128x4096x1 S128x4096 [] [0] [] [0] [] 2 ![1]
  gather_S4096x128_S128x4096x1_S128x4096x128_2_0_n_n_0_2_1128_wf : GatherDims.WF S4096x128 S128x4096x1 S128x4096x128 [2] [0] [] [0] [] 2 ![1, 128]

variable [Facts₀]

def gather_S100002_S128x4096x1_S128x4096_n_0_n_n_0_2_1 : GatherDims S100002 S128x4096x1 S128x4096 where
  offsetDims := []
  collapsedSliceDims := [0]
  operandBatchingDims := []
  startIndicesBatchingDims := []
  startIndexMap := [0]
  indexVectorDim := 2
  sliceSizes := ![1]
  wf := gather_S100002_S128x4096x1_S128x4096_n_0_n_n_0_2_1_wf
def gather_S4096x128_S128x4096x1_S128x4096x128_2_0_n_n_0_2_1128 : GatherDims S4096x128 S128x4096x1 S128x4096x128 where
  offsetDims := [2]
  collapsedSliceDims := [0]
  operandBatchingDims := []
  startIndicesBatchingDims := []
  startIndexMap := [0]
  indexVectorDim := 2
  sliceSizes := ![1, 128]
  wf := gather_S4096x128_S128x4096x1_S128x4096x128_2_0_n_n_0_2_1128_wf

class Facts : Prop extends Facts₀ where

variable [Facts]
-- ==== Proof.PreDecode.lean ====
/-
  What the precondition says, read back.

  The precondition is the conjunction of two "for all" tests, each a reduction by "and" of a bit array into one bit:
  every entry of the table is smaller in absolute value than +∞ — so it is a real number —, and every entry of the road
  map is at least 0 and below 4096, read as a signed word — so its unsigned value is below 4096 and names a table row.
-/
import proofs.«428797_j50002009260273_3_alg».proof.Pre_finite_inputs
import proofs.«428797_j50002009260273_3_alg».proof.Proof.Gen.Pre_finite_inputs
import Idealize.ShloMosaic.Lib.ReduceAll
import Idealize.ShloMosaic.Lib.ValueIdx
import Idealize.ShloMosaic.PureOps.Ideal.Laws
import Idealize.ShloMosaic.Lib.StableHlo.Predicate

noncomputable section

namespace Cert.PreDecode

open Idealize.ShloMosaic Idealize.ShloMosaic.ValueIdx Cert.Pre_finite_inputs

instance : Subsingleton S_.Idx := ⟨fun a b => funext fun d => d.elim0⟩

/-- An extended real whose absolute value is below +∞ is a real number. -/
theorem real_of_abs_lt_top (x : EReal) (h : max x (-x) < (⊤ : EReal)) : ∃ r : ℝ, x = (r : EReal) := by
  induction x using EReal.rec with
  | bot => exact absurd h (by simp)
  | coe r => exact ⟨r, rfl⟩
  | top => exact absurd h (by simp)

/-- A word that is, signed, at least 0 and below 4096 has an unsigned value below 4096. -/
theorem small_of_signed_range (w : BitVec 32) (h0 : (0#32 : BitVec 32).toInt ≤ w.toInt) (h1 : w.toInt < (4096#32 : BitVec 32).toInt) :
    w.toNat < 4096 := by
  have e0 : (0#32 : BitVec 32).toInt = 0 := by decide
  have e1 : (4096#32 : BitVec 32).toInt = 4096 := by decide
  rw [e0] at h0; rw [e1] at h1
  have := BitVec.toInt_eq_toNat_cond w
  have hlt := w.isLt
  split at this <;> omega

/-- THE PRECONDITION READ BACK: the table's entries are real numbers and the road map's entries name table rows. -/
theorem decode (data : IVec S128x4096x1 32) (road : IVec S100002 32) (emb : FVec Ideal S4096x128 .f32)
    (h : fn (F := Ideal) data road emb = fun _ => 1#1) :
    (∀ i, ∃ r : ℝ, emb i = (r : EReal)) ∧ (∀ i, (road i).toNat < 4096) := by
  have h0 := congrFun h ix0
  dsimp only [fn] at h0
  obtain ⟨hA, hB⟩ := (IntOp.andi_eq_one (c := _) (d := _)).mp h0
  constructor
  · intro i
    have hi := Host.reduce_andi_all _ _ _ _ ix0 hA i
    have htop : Ideal.ofBits .f32 0x7F800000#32 = (⊤ : EReal) := by simp [Ideal.ofBits, Ideal.ieee]
    have hc : Ideal.cmp .olt (max (emb i) (-(emb i))) (Ideal.ofBits .f32 0x7F800000#32) = 1#1 := hi
    rw [htop] at hc
    simp only [Ideal.cmp] at hc
    exact real_of_abs_lt_top _ (of_decide_eq_true ((StableHlo.Predicate.ofBool_eq_one_iff _).mp hc))
  · intro i
    have hi := Host.reduce_andi_all _ _ _ _ ix0 hB i
    have hc : IntOp.andi (IntOp.cmpi .sge (road i) 0#32) (IntOp.cmpi .slt (road i) 4096#32) = 1#1 := hi
    obtain ⟨hge, hlt⟩ := IntOp.andi_eq_one.mp hc
    exact small_of_signed_range _ (IntOp.cmpi_sge.mp hge) (IntOp.cmpi_slt.mp hlt)

end Cert.PreDecode

end
-- ==== Proof.Spec.lean ====
/-
  The arithmetic of a table row selected by a one-hot product.

  A column of 4096 zero-or-one weights, one at the row whose number is the cluster id and zero elsewhere, multiplied
  into the table picks that row out: the sum over k of table(k, e) · [k = c] is table(c, e) when c names a row, and 0
  when it names none (the sentinel -1 of a padded token). The second product, against table − table, adds 0 when the
  table's entries are real numbers. Against that stands the row a clamped gather reads, masked to 0 at a padded token.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.StableHlo.Predicate

noncomputable section

namespace Cert.Embed

open Idealize.ShloMosaic Idealize.ShloMosaic.ValueIdx

/-- The weight the kernel gives row word k against cluster word c: the equality bit, widened, read as a number. -/
def hot (k c : BitVec 32) : EReal := ((((IntOp.cmpi .eq k c).setWidth 32).toInt : ℝ) : EReal)

/-- It is 1 where the two words agree and 0 where they differ. -/
theorem hot_eq (k c : BitVec 32) : hot k c = if k = c then 1 else 0 := by
  unfold hot
  by_cases h : k = c
  · rw [if_pos h, StableHlo.Predicate.cmpi_eq_iff.mpr h]
    have : ((1#1 : BitVec 1).setWidth 32).toInt = 1 := by decide
    rw [this]; simp
  · rw [if_neg h]
    have h0 : IntOp.cmpi .eq k c = 0#1 := eq_zero_of_ne_one (fun h1 => h (StableHlo.Predicate.cmpi_eq_iff.mp h1))
    rw [h0]
    have : ((0#1 : BitVec 1).setWidth 32).toInt = 0 := by decide
    rw [this]; simp

/-- Row number k, as a word, is the word c exactly when k is c's value. -/
theorem ofNat_eq_iff {K : ℕ} (hK : K ≤ 2 ^ 32) (k : Fin K) (c : BitVec 32) : BitVec.ofNat 32 k.val = c ↔ k.val = c.toNat := by
  have hk : k.val < 2 ^ 32 := lt_of_lt_of_le k.isLt hK
  constructor
  · intro h; rw [← h, BitVec.toNat_ofNat, Nat.mod_eq_of_lt hk]
  · intro h; apply BitVec.eq_of_toNat_eq; rw [BitVec.toNat_ofNat, Nat.mod_eq_of_lt hk, h]

/-- THE ONE-HOT SUM: the weights pick out the entry at c's value, or nothing when c names no row. -/
theorem sum_hot {K : ℕ} (hK : K ≤ 2 ^ 32) (a : Fin K → EReal) (c : BitVec 32) :
    ∑ k : Fin K, a k * hot (BitVec.ofNat 32 k.val) c = if h : c.toNat < K then a ⟨c.toNat, h⟩ else 0 := by
  have hterm : ∀ k : Fin K, a k * hot (BitVec.ofNat 32 k.val) c = if k.val = c.toNat then a k else 0 := by
    intro k
    rw [hot_eq]
    by_cases h : k.val = c.toNat
    · rw [if_pos ((ofNat_eq_iff hK k c).mpr h), if_pos h, mul_one]
    · rw [if_neg (fun h' => h ((ofNat_eq_iff hK k c).mp h')), if_neg h, mul_zero]
  simp only [hterm]
  by_cases h : c.toNat < K
  · rw [dif_pos h, Finset.sum_eq_single (⟨c.toNat, h⟩ : Fin K)]
    · rw [if_pos rfl]
    · intro k _ hne
      rw [if_neg (fun h' => hne (Fin.ext h'))]
    · intro hn; exact absurd (Finset.mem_univ _) hn
  · rw [dif_neg h]
    refine Finset.sum_eq_zero fun k _ => ?_
    rw [if_neg (fun h' : k.val = c.toNat => h (h' ▸ k.isLt))]

/-- The second product adds nothing: a real entry less itself is zero, and zero times any weight is zero. -/
theorem sum_self_sub {K : ℕ} (a : Fin K → EReal) (ha : ∀ k, ∃ r : ℝ, a k = (r : EReal)) (wt : Fin K → EReal) :
    ∑ k : Fin K, (a k - a k) * wt k = 0 := by
  refine Finset.sum_eq_zero fun k _ => ?_
  obtain ⟨r, hr⟩ := ha k
  rw [hr, ← EReal.coe_sub, sub_self, EReal.coe_zero, zero_mul]

/-- A cluster word in the table's range is not negative as a signed word, … -/
theorem slt_zero_of_small {w : BitVec 32} (hw : w.toNat < 4096) : IntOp.cmpi .slt w 0#32 = 0#1 := by
  have h31 : w.toNat < 2 ^ 31 := by omega
  have hi : w.toInt = (w.toNat : ℤ) := StableHlo.Predicate.toInt_eq_toNat_of_lt h31
  have : w.slt 0#32 = false := by
    rw [BitVec.slt, hi]; simp
  show BitVec.ofBool (w.slt 0#32) = 0#1
  rw [this]; rfl

/-- … and reads, signed and clamped into the table, as its own value. -/
theorem clamp_small {w : BitVec 32} (hw : w.toNat < 4096) : min w.toInt.toNat (4096 - 1) = w.toNat := by
  have h31 : w.toNat < 2 ^ 31 := by omega
  rw [StableHlo.Predicate.toInt_eq_toNat_of_lt h31, Int.toNat_natCast]
  omega

/-- THE TWO SIDES AT ONE ENTRY. For a table of real numbers, a cluster word w in range and a pad bit p: the one-hot
    products against the word (−1 where the token is padding) sum to the row the clamped, wrapped gather reads,
    masked to zero where the token is padding. -/
theorem entry_eq (emb : (⟨2, ![4096, 128]⟩ : Shape).Idx → EReal) (hfin : ∀ i, ∃ r : ℝ, emb i = (r : EReal))
    (p : BitVec 1) (w : BitVec 32) (hw : w.toNat < 4096) (e : Fin 128)
    (hlt : min (Scalar.select (IntOp.cmpi .slt w 0#32) (IntOp.addi w 4096#32) w).toInt.toNat (4096 - 1) < 4096) :
    (∑ k : Fin 4096, emb (ix2 k e) * hot (BitVec.ofNat 32 k.val) (Scalar.select p 4294967295#32 w))
      + (∑ k : Fin 4096, (emb (ix2 k e) - emb (ix2 k e)) * hot (BitVec.ofNat 32 k.val) (Scalar.select p 4294967295#32 w))
    = Scalar.select p (Ideal.ofBits .f32 0x00000000#32)
        (emb (ix2 ⟨min (Scalar.select (IntOp.cmpi .slt w 0#32) (IntOp.addi w 4096#32) w).toInt.toNat (4096 - 1), hlt⟩ e)) := by
  rw [sum_self_sub (fun k => emb (ix2 k e)) (fun k => hfin _), add_zero,
    sum_hot (by norm_num) (fun k => emb (ix2 k e))]
  rcases BitVec.eq_zero_or_eq_one p with rfl | rfl
  · rw [select_zero, select_zero, dif_pos hw]
    congr 2
    refine Fin.ext ?_
    show w.toNat = min (Scalar.select (IntOp.cmpi .slt w 0#32) (IntOp.addi w 4096#32) w).toInt.toNat (4096 - 1)
    rw [slt_zero_of_small hw, select_zero, clamp_small hw]
  · rw [select_one, select_one, dif_neg (by decide), Ideal.ofBits_zero_f32]

/-! ## Layout: a column broadcast across, and a gather of whole rows -/

/-- An [a, 1] column broadcast to [a, b] reads, at (p, q), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.Embed

end
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.KernelBody.lean ====
/-
  The kernel body's one store, read at an entry.

  At token t of the block and embedding coordinate e the body stores the sum of two products: the high half of the
  transposed table against the one-hot column of token t, plus the low half against the same column. The one-hot
  column's weight at row k compares the row-number block's word at k with the cluster-id block's word at t.
-/
import proofs.«428797_j50002009260273_3_alg».proof.Proof.Gen.KernelIdeal.Skeleton
import proofs.«428797_j50002009260273_3_alg».proof.Proof.Spec
import proofs.«428797_j50002009260273_3_alg».proof.Proof.LibMatmul
import Idealize.ShloMosaic.Lib.ValueLayout

noncomputable section

namespace Cert.KernelIdeal.Body

open Cert.KernelIdeal Cert.KernelIdeal.Gen Idealize.ShloMosaic Idealize.ShloMosaic.ValueIdx

/-- The one-hot operand of both products, from the cluster-id block and the row-number block. -/
def weights (x0 : IVec S1x1024 32) (x1 : IVec S4096x1 32) : FVec Ideal S4096x1024 .bf16 :=
  truncf .bf16 (sitofp .f32 (extui 32 (cmpi .eq (broadcastTo S4096x1024 (shapeCast S4096x1 x1 shapeCasts_S4096x1_S4096x1) broadcasts_S4096x1_S4096x1024)
    (broadcastTo S4096x1024 (shapeCast S1x1024 x0 shapeCasts_S1x1024_S1x1024) broadcasts_S1x1024_S4096x1024)) natLt_1_32) : FVec Ideal S4096x1024 .f32) bitsLt_bf16_f32

/-- Its entry at (k, t): the weight of row word k against token t's cluster word. -/
theorem weights_apply (x0 : IVec S1x1024 32) (x1 : IVec S4096x1 32) (k : Fin 4096) (t : Fin 1024) :
    weights x0 x1 (ix2 k t) = Cert.Embed.hot (x1 (ix2 k (0 : Fin 1))) (x0 (ix2 (0 : Fin 1) t)) := by
  unfold weights
  rw [shapeCast_self, shapeCast_self]
  show Cert.Embed.hot (broadcastTo S4096x1024 x1 broadcasts_S4096x1_S4096x1024 (ix2 k t))
    (broadcastTo S4096x1024 x0 broadcasts_S1x1024_S4096x1024 (ix2 k t)) = _
  rw [Cert.Embed.broadcastTo_a1_ab_apply, broadcastTo_1b_ab_apply]

/-- The stored value at (t, e): the two products' entries at (e, t), added. -/
theorem pay_apply (x0 : Vec Ideal S1x1024 .i32) (x1 : Vec Ideal S4096x1 .i32) (x2 x3 : Vec Ideal S128x4096 .bf16)
    (t : Fin 1024) (e : Fin 128) :
    k0_pay1 (F := Ideal) x0 x1 x2 x3 (ix2 t e)
      = (∑ k : Fin 4096, x2 (ix2 e k) * Cert.Embed.hot (x1 (ix2 k (0 : Fin 1))) (x0 (ix2 (0 : Fin 1) t)))
        + (∑ k : Fin 4096, x3 (ix2 e k) * Cert.Embed.hot (x1 (ix2 k (0 : Fin 1))) (x0 (ix2 (0 : Fin 1) t))) := by
  unfold k0_pay1
  refine (transpose_ix2_apply _ transposes_S128x1024_p1_0_S1024x128 t e).trans ?_
  rw [addf_apply]
  have hm : ∀ (l : FVec Ideal S128x4096 .bf16),
      matmul dot_S128x4096_S4096x1024_S128x1024_1_0_0_1_n_n none (shapeCast S128x4096 l shapeCasts_S128x4096_S128x4096)
          (weights x0 x1) (constant S128x1024 .f32 0x00000000#32) (ix2 e t)
        = ∑ k : Fin 4096, l (ix2 e k) * Cert.Embed.hot (x1 (ix2 k (0 : Fin 1))) (x0 (ix2 (0 : Fin 1) t)) := by
    intro l
    rw [shapeCast_self]
    refine (Cert.Matmul.matmul_plain_apply (M := 128) (K := 4096) (N := 1024) none l (weights x0 x1) e t).trans ?_
    refine Finset.sum_congr rfl fun k _ => ?_
    rw [weights_apply]
  exact congrArg₂ (· + ·) (hm x2) (hm x3)

end Cert.KernelIdeal.Body

end
-- ==== Proof.KernelHost.lean ====
/-
  What the kernel's launch finds in its four operand arrays.

  Before the launch the program reshapes the token ids to [128, 4096], looks each id's cluster up in the road map,
  replaces the cluster of a padding token by −1 and lays the result out as one row of 524288 words; it numbers the
  table's rows 0 … 4095 in a column; and it splits the table into a high half (the table narrowed) and a low half
  (the table less its high half, narrowed), both transposed. Over the extended reals narrowing changes nothing, so the
  high half is the table and the low half is the table less itself.
-/
import proofs.«428797_j50002009260273_3_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx

/-- The token ids as a [128, 4096] array. -/
def ids (data : IVec S128x4096x1 32) : IVec S128x4096 32 := shapeCast S128x4096 data shapeCasts_S128x4096x1_S128x4096

/-- Which tokens are padding: the id equals 100001. -/
def padMask (data : IVec S128x4096x1 32) : IVec S128x4096 1 :=
  cmpi .eq (ids data) (broadcastInDim S128x4096 ![] bcast_S_S128x4096 (constantI S_ 32 100001#32))

/-- Each token's cluster: the road map at the token's id (a negative id counted from the end, then clamped). -/
def clusterIds (data : IVec S128x4096x1 32) (road : IVec S100002 32) : IVec S128x4096 32 :=
  Host.gather gather_S100002_S128x4096x1_S128x4096_n_0_n_n_0_2_1 road
    (broadcastInDim S128x4096x1 ![0, 1] bcast_S128x4096_S128x4096x1_0_1
      (select (cmpi .slt (ids data) (broadcastInDim S128x4096 ![] bcast_S_S128x4096 (constantI S_ 32 0#32)))
        (addi (ids data) (broadcastInDim S128x4096 ![] bcast_S_S128x4096 (constantI S_ 32 100002#32))) (ids data)))

/-- The cluster words the kernel compares against, −1 at a padding token, as [128, 4096]. -/
def cidGrid (data : IVec S128x4096x1 32) (road : IVec S100002 32) : IVec S128x4096 32 :=
  select (padMask data) (broadcastInDim S128x4096 ![] bcast_S_S128x4096 (constantI S_ 32 4294967295#32)) (clusterIds data road)

variable (m : (ℓ : Loc nD τ sig) → Buf (Elt Ideal) ℓ)

/-- Operand 0: the cluster words as one row. -/
theorem V_cidRow (c : Dev nD) : V m c main_v11
    = shapeCast S1x524288 (cidGrid (m ((c : Thread nD τ).loc main_arg0)) (m ((c : Thread nD τ).loc main_arg1))) shapeCasts_S128x4096_S1x524288 := by
  dsimp only [V, V0]
  simp only [hostOps0, hostOps0_1, hostOps0_2, List.flatten_cons, List.flatten_nil, List.append_nil, List.cons_append, List.nil_append]
  after_results <;> rfl

/-- Operand 1: the row numbers as a column. -/
theorem V_rowNumbers (c : Dev nD) : V m c main_v13 = shapeCast S4096x1 (iotaInDim S4096 32 0) shapeCasts_S4096_S4096x1 := by
  dsimp only [V, V0]
  simp only [hostOps0, hostOps0_1, hostOps0_2, List.flatten_cons, List.flatten_nil, List.append_nil, List.cons_append, List.nil_append]
  after_results <;> rfl

/-- Operand 2: the table's high half, transposed. -/
theorem V_hi (c : Dev nD) : V m c main_v18
    = transpose S128x4096 [1, 0] (truncf (F := Ideal) .bf16 (m ((c : Thread nD τ).loc main_arg2)) bitsLt_bf16_f32) transposes_S4096x128_S128x4096_1_0 := by
  dsimp only [V, V0]
  simp only [hostOps0, hostOps0_1, hostOps0_2, List.flatten_cons, List.flatten_nil, List.append_nil, List.cons_append, List.nil_append]
  after_results <;> rfl

/-- Operand 3: the table's low half, transposed. -/
theorem V_lo (c : Dev nD) : V m c main_v19
    = transpose S128x4096 [1, 0] (truncf (F := Ideal) .bf16 (subf (m ((c : Thread nD τ).loc main_arg2))
        (extf .f32 (truncf (F := Ideal) .bf16 (m ((c : Thread nD τ).loc main_arg2)) bitsLt_bf16_f32) bitsLt_bf16_f32)) bitsLt_bf16_f32)
        transposes_S4096x128_S128x4096_1_0 := by
  dsimp only [V, V0]
  simp only [hostOps0, hostOps0_1, hostOps0_2, List.flatten_cons, List.flatten_nil, List.append_nil, List.cons_append, List.nil_append]
  after_results <;> rfl

/-! ## The four arrays at an index -/

/-- The row of cluster words at token n is the grid's word at (n / 4096, n % 4096). -/
theorem cidRow_apply (g : IVec S128x4096 32) (n : Fin 524288) :
    shapeCast S1x524288 g shapeCasts_S128x4096_S1x524288 (ix2 (0 : Fin 1) n)
      = g (ix2 ⟨n.val / 4096, by have := n.isLt; omega⟩ ⟨n.val % 4096, Nat.mod_lt _ (by norm_num)⟩) := by
  refine shapeCast_apply g shapeCasts_S128x4096_S1x524288 _ _ ?_
  rw [Shape.rowMajor_val_two, Shape.rowMajor_val_two]
  show n.val / 4096 * 4096 + n.val % 4096 = 0 * 524288 + n.val
  omega

/-- The column of row numbers at k is the word k. -/
theorem rowNumbers_apply (k : Fin 4096) :
    shapeCast S4096x1 (iotaInDim S4096 32 0) shapeCasts_S4096_S4096x1 (ix2 k (0 : Fin 1)) = BitVec.ofNat 32 k.val := by
  refine (shapeCast_apply (iotaInDim S4096 32 0) shapeCasts_S4096_S4096x1 (ix2 k (0 : Fin 1)) (ix1 k) ?_).trans rfl
  rw [Shape.rowMajor_val_one, Shape.rowMajor_val_two]
  show k.val = k.val * 1 + 0
  omega

/-- The transposed high half at (e, k) is the table at (k, e). -/
theorem hi_apply (emb : FVec Ideal S4096x128 .f32) (e : Fin 128) (k : Fin 4096) :
    transpose S128x4096 [1, 0] (truncf (F := Ideal) .bf16 emb bitsLt_bf16_f32) transposes_S4096x128_S128x4096_1_0 (ix2 e k)
      = emb (ix2 k e) :=
  transpose_ix2_apply _ transposes_S4096x128_S128x4096_1_0 e k

/-- The transposed low half at (e, k) is the table's entry at (k, e) less itself. -/
theorem lo_apply (emb : FVec Ideal S4096x128 .f32) (e : Fin 128) (k : Fin 4096) :
    transpose S128x4096 [1, 0] (truncf (F := Ideal) .bf16 (subf emb (extf .f32 (truncf (F := Ideal) .bf16 emb bitsLt_bf16_f32) bitsLt_bf16_f32))
        bitsLt_bf16_f32) transposes_S4096x128_S128x4096_1_0 (ix2 e k)
      = emb (ix2 k e) - emb (ix2 k e) :=
  transpose_ix2_apply _ transposes_S4096x128_S128x4096_1_0 e k

end Cert.KernelIdeal.HostSide

end
-- ==== Proof.KernelValue.lean ====
/-
  The kernel's result array, entry by entry.

  Grid point t handles tokens t·1024 … t·1024 + 1023: it reads their cluster words, the column of row numbers and the
  two transposed halves of the table, and writes rows t·1024 … of the flat [524288, 128] output. Entry (n, e) of the
  flat output is therefore the one-hot sum for token n's cluster word and column e; the 512 points' blocks tile the
  array; and the final reshape reads flat row b·4096 + s at (b, s).
-/
import proofs.«428797_j50002009260273_3_alg».proof.Proof.KernelBody
import proofs.«428797_j50002009260273_3_alg».proof.Proof.KernelHost
import Idealize.ShloMosaic.Lib.Pipeline.Value

set_option maxRecDepth 16384

noncomputable section

namespace Cert.KernelIdeal.KValue

open Cert.KernelIdeal Cert.KernelIdeal.Gen Cert.KernelIdeal.HostSide Idealize.ShloMosaic Idealize.ShloMosaic.TcCoe Idealize.SL.Sem
open Idealize.ShloMosaic.ValueIdx
open Idealize.ShloMosaic.Pipeline (Dat)

/-- The two one-hot products' sum for a cluster word cw and a column e of the table. -/
def outEntry (emb : FVec Ideal S4096x128 .f32) (cw : BitVec 32) (e : Fin 128) : EReal :=
  (∑ k : Fin 4096, emb (ix2 k e) * Cert.Embed.hot (BitVec.ofNat 32 k.val) cw)
    + (∑ k : Fin 4096, (emb (ix2 k e) - emb (ix2 k e)) * Cert.Embed.hot (BitVec.ofNat 32 k.val) cw)

/-- Token n's cluster word: the grid's word at (n / 4096, n % 4096). -/
def tokenWord (g : IVec S128x4096 32) (n : Fin 524288) : BitVec 32 :=
  g (ix2 ⟨n.val / 4096, by have := n.isLt; omega⟩ ⟨n.val % 4096, Nat.mod_lt _ (by norm_num)⟩)

/-- The flat output as one function of the cluster-word grid and the table. -/
def flatOut (g : IVec S128x4096 32) (emb : FVec Ideal S4096x128 .f32) : S524288x128.Idx → EReal :=
  fun i => outEntry emb (tokenWord g ⟨(i 0).val, idx2_lt0 i⟩) ⟨(i 1).val, idx2_lt1 i⟩

theorem flatOut_ix2 (g : IVec S128x4096 32) (emb : FVec Ideal S4096x128 .f32) (n : Fin 524288) (e : Fin 128) :
    flatOut g emb (ix2 n e) = outEntry emb (tokenWord g n) e := rfl

variable (m : (ℓ : Loc nD τ sig) → Buf (Elt Ideal) ℓ) (ρ : Dev nD → PrngReg)

/-- The three argument arrays as launched, at their literal types. -/
abbrev dataArr (c : Dev nD) : IVec S128x4096x1 32 := m ((c : Thread nD τ).loc main_arg0)
abbrev roadArr (c : Dev nD) : IVec S100002 32 := m ((c : Thread nD τ).loc main_arg1)
abbrev tbl (c : Dev nD) : FVec Ideal S4096x128 .f32 := m ((c : Thread nD τ).loc main_arg2)

theorem zeroOffsets : (![0, 0] : Fin 2 → Nat) = fun _ => 0 := funext fun a => by fin_cases a <;> rfl

/-- The printed index maps over the grid: the cluster row and the output move with the point, the others stay. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 512 := lt_of_lt_of_eq t.isLt N_0

/-- Point t's cluster-word block at p is token t·1024 + p's word. -/
theorem read_cid (c : Dev nD) (t : Fin cfg0.N) (p : Fin 1024) :
    iblk m c 0 t (ix2 (0 : Fin 1) p)
      = tokenWord (cidGrid (dataArr m c) (roadArr m c))
          ⟨t.val * 1024 + p.val, by have := point_lt t; have := p.isLt; omega⟩ := by
  obtain ⟨e0, e1, -⟩ := idx_facts t
  have hemb : ((cfg0.win 0).blk t).view.emb (ix2 (0 : Fin 1) p)
      = ix2 (0 : Fin 1) (⟨t.val * 1024 + p.val, by have := point_lt t; have := p.isLt; omega⟩ : Fin 524288) := by
    funext a; apply Fin.ext
    match a with
    | ⟨0, _⟩ => show win0_0.index t (0 : Fin 2) * 1 + 1 * 0 = 0; omega
    | ⟨1, _⟩ => show win0_0.index t (1 : Fin 2) * 1024 + 1 * p.val = t.val * 1024 + p.val; omega
  show V m c main_v11 (((cfg0.win 0).blk t).view.emb (ix2 (0 : Fin 1) p)) = _
  rw [hemb, V_cidRow, cidRow_apply]
  rfl

/-- Point t's row-number block at k is the word k. -/
theorem read_rows (c : Dev nD) (t : Fin cfg0.N) (k : Fin 4096) :
    iblk m c 1 t (ix2 k (0 : Fin 1)) = BitVec.ofNat 32 k.val := by
  obtain ⟨-, -, e0, e1, -⟩ := idx_facts t
  have hemb : ((cfg0.win 1).blk t).view.emb (ix2 k (0 : Fin 1)) = ix2 k (0 : Fin 1) := by
    funext a; apply Fin.ext
    match a with
    | ⟨0, _⟩ => show win0_1.index t (0 : Fin 2) * 4096 + 1 * k.val = k.val; omega
    | ⟨1, _⟩ => show win0_1.index t (1 : Fin 2) * 1 + 1 * 0 = 0; omega
  show V m c main_v13 (((cfg0.win 1).blk t).view.emb (ix2 k (0 : Fin 1))) = _
  rw [hemb, V_rowNumbers, rowNumbers_apply]

/-- Point t's high-half block at (e, k) is the table at (k, e). -/
theorem read_hi (c : Dev nD) (t : Fin cfg0.N) (e : Fin 128) (k : Fin 4096) :
    iblk m c 2 t (ix2 e k) = tbl m c (ix2 k e) := by
  obtain ⟨-, -, -, -, e0, e1, -⟩ := idx_facts t
  have hemb : ((cfg0.win 2).blk t).view.emb (ix2 e k) = ix2 e k := by
    funext a; apply Fin.ext
    match a with
    | ⟨0, _⟩ => show win0_2.index t (0 : Fin 2) * 128 + 1 * e.val = e.val; omega
    | ⟨1, _⟩ => show win0_2.index t (1 : Fin 2) * 4096 + 1 * k.val = k.val; omega
  show V m c main_v18 (((cfg0.win 2).blk t).view.emb (ix2 e k)) = _
  rw [hemb, V_hi, hi_apply]

/-- Point t's low-half block at (e, k) is the table's entry at (k, e) less itself. -/
theorem read_lo (c : Dev nD) (t : Fin cfg0.N) (e : Fin 128) (k : Fin 4096) :
    iblk m c 3 t (ix2 e k) = tbl m c (ix2 k e)
      - tbl m c (ix2 k e) := by
  obtain ⟨-, -, -, -, -, -, e0, e1, -⟩ := idx_facts t
  have hemb : ((cfg0.win 3).blk t).view.emb (ix2 e k) = ix2 e k := by
    funext a; apply Fin.ext
    match a with
    | ⟨0, _⟩ => show win0_3.index t (0 : Fin 2) * 128 + 1 * e.val = e.val; omega
    | ⟨1, _⟩ => show win0_3.index t (1 : Fin 2) * 4096 + 1 * k.val = k.val; omega
  show V m c main_v19 (((cfg0.win 3).blk t).view.emb (ix2 e k)) = _
  rw [hemb, V_lo, lo_apply]

/-- The body's stored value at (p, q) of point t's block is the flat output at (t·1024 + p, q). -/
theorem point_eq (c : Dev nD) (t : Fin cfg0.N) (p : Fin 1024) (q : Fin 128) :
    k0_pay1 (F := Ideal) (iblk m c 0 t) (iblk m c 1 t) (iblk m c 2 t) (iblk m c 3 t) (ix2 p q)
      = flatOut (cidGrid (dataArr m c) (roadArr m c)) (tbl m c)
          (ix2 (⟨t.val * 1024 + p.val, by have := point_lt t; have := p.isLt; omega⟩ : Fin 524288) q) := by
  rw [flatOut_ix2]
  refine (Cert.KernelIdeal.Body.pay_apply _ _ _ _ p q).trans ?_
  rw [read_cid m c t p]
  simp only [read_rows m c t, read_hi m c t, read_lo m c t]
  rfl

/-- What point t writes back, as the body's stored value of the point's input blocks. -/
theorem flushed_raw (c : Dev nD) (t : Fin cfg0.N) :
    (dats m 0 c).flushed 4 t = (cfg0.win 4).cut (grid0.coords t)
      (k0_pay1 (F := Ideal) (iblk m c 0 t) (iblk m c 1 t) (iblk m c 2 t) (iblk m c 3 t)) := by
  show (cfg0.win 4).cut (grid0.coords t) ((dats m 0 c).after 4 t) = _
  rw [after0_4]
  unfold out0_4
  rw [View.canon_unit_zero zeroOffsets]
  simp only [View.ld_unit_zero (S := S1x1024) zeroOffsets, View.ld_unit_zero (S := S4096x1) zeroOffsets,
    View.ld_unit_zero (S := S128x4096) zeroOffsets]

/-- WHAT POINT t WRITES BACK is block t of the flat output. -/
theorem flushed_eq (c : Dev nD) (t : Fin cfg0.N) :
    (dats m 0 c).flushed 4 t = ((cfg0.win 4).blk t).view.read (Elt Ideal)
      (flatOut (cidGrid (dataArr m c) (roadArr m c)) (tbl m c)) := by
  rw [flushed_raw]
  have hpt := point_eq m c t
  generalize flatOut (cidGrid (dataArr m c) (roadArr m c)) (tbl m c) = G at hpt ⊢
  generalize k0_pay1 (F := Ideal) (iblk m c 0 t) (iblk m c 1 t) (iblk m c 2 t) (iblk m c 3 t) = P at hpt ⊢
  obtain ⟨-, -, -, -, -, -, -, -, e0, e1⟩ := idx_facts t
  funext j
  obtain ⟨p, q, rfl⟩ : ∃ (p : Fin 1024) (q : Fin 128), j = ix2 p q := ⟨j 0, j 1, eq_ix2 j⟩
  have hemb : ((cfg0.win 4).blk t).view.emb (ix2 p q)
      = ix2 (⟨t.val * 1024 + p.val, by have := point_lt t; have := p.isLt; omega⟩ : Fin 524288) q := by
    funext a; apply Fin.ext
    match a with
    | ⟨0, _⟩ => show win0_4.index t (0 : Fin 2) * 1024 + 1 * p.val = t.val * 1024 + p.val; omega
    | ⟨1, _⟩ => show win0_4.index t (1 : Fin 2) * 128 + 1 * q.val = q.val; omega
  show P (ix2 p q) = G (((cfg0.win 4).blk t).view.emb (ix2 p q))
  rw [hemb]
  exact hpt p q

/-- An index of the flat output is in point t's block iff each coordinate is in the block's range. -/
theorem mem_blk (t : Fin cfg0.N) (i : S524288x128.Idx) :
    i ∈ ((cfg0.win 4).blk t).view.set ↔ ∀ a : Fin 2, win0_4.index t a * S1024x128.size a ≤ (i a).val
      ∧ (i a).val < win0_4.index t a * S1024x128.size a + S1024x128.size a := by
  show i ∈ ((View.whole main_v20).slice (win0_4.rect t)).set ↔ _
  rw [View.set_slice_whole, Rect.mem_set_unit]
  exact Iff.rfl

/-- Row n of the flat output is written by point n / 1024. -/
theorem cover (i : S524288x128.Idx) :
    ∃ t : Fin cfg0.N, (cfg0.win 4).flush t = true ∧ i ∈ ((cfg0.win 4).blk t).view.set := by
  have hi0 : (i 0).val < 524288 := idx2_lt0 i
  have hi1 : (i 1).val < 128 := idx2_lt1 i
  have hN : cfg0.N = 512 := N_0
  let t : Fin cfg0.N := ⟨(i 0).val / 1024, by rw [hN]; omega⟩
  obtain ⟨-, -, -, -, -, -, -, -, e0, e1⟩ := idx_facts t
  refine ⟨t, flush0_4 t, ?_⟩
  rw [mem_blk]
  intro a
  match a with
  | ⟨0, _⟩ =>
    show win0_4.index t (0 : Fin 2) * 1024 ≤ (i 0).val ∧ (i 0).val < win0_4.index t (0 : Fin 2) * 1024 + 1024
    rw [e0]; show (i 0).val / 1024 * 1024 ≤ (i 0).val ∧ (i 0).val < (i 0).val / 1024 * 1024 + 1024; omega
  | ⟨1, _⟩ =>
    show win0_4.index t (1 : Fin 2) * 128 ≤ (i 1).val ∧ (i 1).val < win0_4.index t (1 : Fin 2) * 128 + 128
    rw [e1]; omega

/-- THE FLAT OUTPUT after the launch. -/
theorem final (c : Dev nD) : (dats m 0 c).arrAt 4 cfg0.N
    = flatOut (cidGrid (dataArr m c) (roadArr m c)) (tbl m c) :=
  (dats m 0 c).arrAt_eq_of_cover 4 _ (fun t _ => flushed_eq m c t) cover

end Cert.KernelIdeal.KValue

end
-- ==== Proof.KernelRun.lean ====
/-
  The kernel program's run, with its result named.

  After the launch one reshape views the flat [524288, 128] output as [128, 4096, 128]; nothing else follows. So every
  execution ends with the result buffer at that view of the flat output and the three arguments as launched.
-/
import proofs.«428797_j50002009260273_3_alg».proof.Proof.KernelValue
import Idealize.ShloMosaic.Lib.StableHlo.Run

noncomputable section

namespace Cert.KernelIdeal.KRun

open Cert.KernelIdeal Cert.KernelIdeal.Gen Cert.KernelIdeal.HostSide Cert.KernelIdeal.KValue
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The kernel program's result: the flat output viewed as [128, 4096, 128]. -/
def result (c : Dev nD) : S128x4096x128.Idx → EReal :=
  shapeCast S128x4096x128 (flatOut (cidGrid (dataArr m c) (roadArr m c)) (tbl m c)) shapeCasts_S524288x128_S128x4096x128

/-- The one operation after the launch reshapes whatever the flat output array holds. -/
theorem tail_eq (c : Dev nD) (G : S524288x128.Idx → EReal) (hG : (dats m 0 c).arrAt 4 cfg0.N = G) :
    Pipeline.afterTail₀ cfgs (dats m) 0 (V0 m) [hostOps1] c main_v21
      = shapeCast S128x4096x128 G shapeCasts_S524288x128_S128x4096x128 := by
  have hw : Pipeline.withArrays (cfgs 0).spec c (V0 m c) (fun w => (dats m 0 c).arrAt w (cfgs 0).N) (Proc.devRef .tc main_v20) = G :=
    (Pipeline.withArrays_arr spec0 launch0.win.arr_inj c _ _ 4).trans hG
  unfold Pipeline.afterTail₀
  show StableHlo.after hostOps1 _ (Proc.devRef .tc main_v21) = _
  after_results
  rw [hw]
  rfl

/-- THE KERNEL PROGRAM'S RUN: it terminates with the result buffer at result and the arguments unchanged. -/
theorem run : θ_run defs (onTc (τ := τ) (main (F := Ideal))) ⟨m, fun _ => 0, ρ⟩ (fun r => ∀ c : Dev nD,
      r.2.mem ((c.tc : Thread nD τ).loc main_v21) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v21 (Pipeline.mem_restRefs_of main_v21 (by decide) (by decide))).trans (tail_eq m c _ (final m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KRun

end
-- ==== Proof.LibGatherRows.lean ====
/-
  A gather of whole rows, read at an index.

  What table[idx] of a table [N, E] at an integer array idx : [R, C] lowers to: a gather with the row axis collapsed,
  the index vector on a trailing unit axis of the indices [R, C, 1], and slices of one whole row. Result element
  (r, c, e) is the table at row idx[r, c, 0] — read as a signed integer and clamped into [0, N − 1] — and column e.
-/
import Idealize.ShloMosaic.Lib.ValueIdx

noncomputable section

namespace Cert.GatherRows

open Idealize.ShloMosaic Idealize.ShloMosaic.ValueIdx

/-- The dimension numbers of a row gather from [N, E] at indices [R, C, 1] into [R, C, E]. -/
abbrev rowsDims (N E R C : Nat)
    (wf : GatherDims.WF ⟨2, ![N, E]⟩ ⟨3, ![R, C, 1]⟩ ⟨3, ![R, C, E]⟩ [2] [0] [] [0] [] 2 ![1, E]) :
    GatherDims ⟨2, ![N, E]⟩ ⟨3, ![R, C, 1]⟩ ⟨3, ![R, C, E]⟩ where
  offsetDims := [2]
  collapsedSliceDims := [0]
  operandBatchingDims := []
  startIndicesBatchingDims := []
  startIndexMap := [0]
  indexVectorDim := 2
  sliceSizes := ![1, E]
  wf := wf

/-- THE ROW GATHER READ AT (r, c, e): the table at the clamped row idx[r, c, 0] and column e. -/
theorem gather_rows_apply {α : Type} {N E R C w : Nat} (hN : 0 < N)
    (wf : GatherDims.WF ⟨2, ![N, E]⟩ ⟨3, ![R, C, 1]⟩ ⟨3, ![R, C, E]⟩ [2] [0] [] [0] [] 2 ![1, E])
    (x : (⟨2, ![N, E]⟩ : Shape).Idx → α) (idx : IVec ⟨3, ![R, C, 1]⟩ w) (r : Fin R) (c : Fin C) (e : Fin E) :
    Host.gather (rowsDims N E R C wf) x idx (ix3 r c e)
      = x (ix2 ⟨min (idx (ix3 r c (0 : Fin 1))).toInt.toNat (N - 1), by omega⟩ e) := by
  unfold Host.gather
  congr 1
  funext a
  refine Fin.ext ?_
  show (rowsDims N E R C wf).start (ix3 r c e) idx a + (rowsDims N E R C wf).batchCoord (ix3 r c e) a
      + (rowsDims N E R C wf).offCoord (ix3 r c e) a = _
  rw [GatherDims.batchCoord_eq_zero _ _ _ List.not_mem_nil]
  have ha : a = (0 : Fin 2) ∨ a = (1 : Fin 2) := by
    rcases a with ⟨v, hv⟩
    match v, hv with
    | 0, _ => exact Or.inl rfl
    | 1, _ => exact Or.inr rfl
  rcases ha with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E R C wf).startIndexMap from List.mem_singleton.mpr rfl)]
    have hsi : (rowsDims N E R C wf).siIdx (ix3 r c e) ⟨List.idxOf (0 : Fin 2) (rowsDims N E R C wf).startIndexMap,
        List.idxOf_lt_length_iff.2 (List.mem_singleton.mpr rfl)⟩ = ix3 r c (0 : Fin 1) := by
      funext b; refine Fin.ext ?_
      match b with
      | ⟨0, _⟩ => rfl
      | ⟨1, _⟩ => rfl
      | ⟨2, _⟩ => rfl
    rw [hsi]
    rfl
  · have hstart : (rowsDims N E R C wf).start (ix3 r c e) idx (1 : Fin 2) = 0 := by
      unfold GatherDims.start
      exact dif_neg (show (1 : Fin 2) ∉ ([0] : List (Fin 2)) by decide)
    have hmem : (1 : Fin 2) ∈ (rowsDims N E R C wf).sKept :=
      (GatherDims.mem_sKept _ _).mpr ⟨(show (1 : Fin 2) ∉ ([0] : List (Fin 2)) by decide), List.not_mem_nil⟩
    have hoff : (rowsDims N E R C wf).offCoord (ix3 r c e) (1 : Fin 2) = e.val := by
      unfold GatherDims.offCoord
      rw [dif_pos hmem]
      rfl
    rw [hstart, hoff]
    simp only [Nat.add_zero, Nat.zero_add]

end Cert.GatherRows

end
-- ==== Proof.RefValue.lean ====
/-
  The reference's result, entry by entry.

  At (b, s, e) the reference selects, by the pad bit of token (b, s), between 0 and the table's row for the token's
  cluster at column e — the cluster word taken from the end of the table when negative, then clamped into the table.
-/
import proofs.«428797_j50002009260273_3_alg».proof.Proof.Gen.ReferenceIdeal.Read
import proofs.«428797_j50002009260273_3_alg».proof.Proof.LibGatherRows
import Idealize.ShloMosaic.PureOps.Ideal.Laws

noncomputable section

namespace Cert.ReferenceIdeal.RefValue

open Cert.ReferenceIdeal Cert.ReferenceIdeal.Gen Idealize.ShloMosaic Idealize.ShloMosaic.ValueIdx

/-- The reference's result at (b, s, e), over its own pad bit and cluster word of token (b, s). -/
theorem ref_apply (data : IVec S128x4096x1 32) (road : IVec S100002 32) (emb : FVec Ideal S4096x128 .f32)
    (b : Fin 128) (s : Fin 4096) (e : Fin 128)
    (hlt : min (Scalar.select (IntOp.cmpi .slt (Read.val_main_v7 (F := Ideal) data road (ix2 b s)) 0#32)
      (IntOp.addi (Read.val_main_v7 (F := Ideal) data road (ix2 b s)) 4096#32)
      (Read.val_main_v7 (F := Ideal) data road (ix2 b s))).toInt.toNat (4096 - 1) < 4096) :
    Read.val_main_v18 (F := Ideal) data road emb (ix3 b s e)
      = Scalar.select (Read.val_main_v16 (F := Ideal) data (ix2 b s)) (Ideal.ofBits .f32 0x00000000#32)
          (emb (ix2 ⟨min (Scalar.select (IntOp.cmpi .slt (Read.val_main_v7 (F := Ideal) data road (ix2 b s)) 0#32)
            (IntOp.addi (Read.val_main_v7 (F := Ideal) data road (ix2 b s)) 4096#32)
            (Read.val_main_v7 (F := Ideal) data road (ix2 b s))).toInt.toNat (4096 - 1), hlt⟩ e)) := by
  have i1 : Read.idx_main_call0_v0 (ix3 b s e) = ix3 b s (0 : Fin 1) :=
    funext fun a => Fin.ext (by match a with | ⟨0, _⟩ => rfl | ⟨1, _⟩ => rfl | ⟨2, _⟩ => rfl)
  have i2 : Read.idx_main_v17 (ix3 b s (0 : Fin 1)) = ix2 b s :=
    funext fun a => Fin.ext (by match a with | ⟨0, _⟩ => rfl | ⟨1, _⟩ => rfl)
  have i3 : Read.idx_main_v13 (ix3 b s (0 : Fin 1)) = ix2 b s :=
    funext fun a => Fin.ext (by match a with | ⟨0, _⟩ => rfl | ⟨1, _⟩ => rfl)
  have hrow : Read.val_main_v14 (F := Ideal) data road emb (ix3 b s e)
      = emb (ix2 ⟨min (Read.val_main_v13 (F := Ideal) data road (ix3 b s (0 : Fin 1))).toInt.toNat (4096 - 1), by omega⟩ e) := by
    unfold Read.val_main_v14
    exact Cert.GatherRows.gather_rows_apply (N := 4096) (E := 128) (R := 128) (C := 4096) (by norm_num) _ emb _ b s e
  have hidx : Read.val_main_v13 (F := Ideal) data road (ix3 b s (0 : Fin 1))
      = Scalar.select (IntOp.cmpi .slt (Read.val_main_v7 (F := Ideal) data road (ix2 b s)) 0#32)
          (IntOp.addi (Read.val_main_v7 (F := Ideal) data road (ix2 b s)) 4096#32)
          (Read.val_main_v7 (F := Ideal) data road (ix2 b s)) := by
    rw [Read.val_main_v13_apply, i3, Read.val_main_v12_apply, Read.val_main_v9_apply, Read.val_main_v11_apply,
      Read.val_main_v8_apply, Read.val_main_c_1_apply, Read.val_main_v10_apply, Read.val_main_c_2_apply]
  rw [Read.val_main_v18_apply, Read.val_main_call0_v0_apply, i1, Read.val_main_v17_apply, i2,
    Read.val_main_call0_v1_apply, Read.val_main_cst_apply, Ideal.ofBits_def, hrow]
  congr 2

end Cert.ReferenceIdeal.RefValue

end
-- ==== Proof.Bridge.lean ====
/-
  The two results are one function.

  At (b, s, e) the kernel's result is the one-hot sum for token (b, s)'s cluster word — −1 where the token is padding —
  and the reference's is the clamped row of the table, masked at a padding token. The pad bit and the looked-up cluster
  word are the same terms in both programs; with the road map's entries naming table rows and the table's entries real,
  the two agree entry by entry.
-/
import proofs.«428797_j50002009260273_3_alg».proof.Proof.KernelRun
import proofs.«428797_j50002009260273_3_alg».proof.Proof.RefValue
import proofs.«428797_j50002009260273_3_alg».proof.Proof.Spec

noncomputable section

namespace Cert.Bridge

open Idealize.ShloMosaic Idealize.ShloMosaic.ValueIdx
open Cert.KernelIdeal.HostSide Cert.KernelIdeal.KValue

/-- Flat row b·4096 + s is token (b, s). -/
theorem tokenWord_grid (g : IVec Cert.KernelIdeal.S128x4096 32) (b : Fin 128) (s : Fin 4096) :
    tokenWord g ⟨b.val * 4096 + s.val, by have := b.isLt; have := s.isLt; omega⟩ = g (ix2 b s) := by
  unfold tokenWord
  congr 1
  funext a
  refine Fin.ext ?_
  match a with
  | ⟨0, _⟩ => show (b.val * 4096 + s.val) / 4096 = b.val; have := s.isLt; omega
  | ⟨1, _⟩ => show (b.val * 4096 + s.val) % 4096 = s.val; have := s.isLt; omega

/-- The kernel program's result at (b, s, e) is the flat output at (b·4096 + s, e). -/
theorem result_apply (G : Cert.KernelIdeal.S524288x128.Idx → EReal) (b : Fin 128) (s : Fin 4096) (e : Fin 128) :
    shapeCast Cert.KernelIdeal.S128x4096x128 G Cert.KernelIdeal.Facts₀.shapeCasts_S524288x128_S128x4096x128 (ix3 b s e)
      = G (ix2 (⟨b.val * 4096 + s.val, by have := b.isLt; have := s.isLt; omega⟩ : Fin 524288) e) := by
  refine shapeCast_apply G _ _ _ ?_
  rw [Shape.rowMajor_val_two, Shape.rowMajor_val_three]
  rfl

/-- THE TWO RESULTS AGREE, for a table of real numbers and a road map whose entries name table rows. -/
theorem result_eq (data : IVec Cert.KernelIdeal.S128x4096x1 32) (road : IVec Cert.KernelIdeal.S100002 32)
    (emb : FVec Ideal Cert.KernelIdeal.S4096x128 .f32)
    (hfin : ∀ i, ∃ r : ℝ, emb i = (r : EReal)) (hroad : ∀ i, (road i).toNat < 4096) :
    shapeCast Cert.KernelIdeal.S128x4096x128 (flatOut (cidGrid data road) emb)
        Cert.KernelIdeal.Facts₀.shapeCasts_S524288x128_S128x4096x128
      = Cert.ReferenceIdeal.Read.val_main_v18 (F := Ideal) data road emb := by
  funext j
  obtain ⟨b, s, e, rfl⟩ : ∃ (b : Fin 128) (s : Fin 4096) (e : Fin 128), j = ix3 b s e := ⟨j 0, j 1, j 2, eq_ix3 j⟩
  have hw : (clusterIds data road (ix2 b s)).toNat < 4096 := by
    unfold clusterIds Host.gather
    exact hroad _
  have hlt : min (Scalar.select (IntOp.cmpi .slt (clusterIds data road (ix2 b s)) 0#32)
      (IntOp.addi (clusterIds data road (ix2 b s)) 4096#32) (clusterIds data road (ix2 b s))).toInt.toNat (4096 - 1) < 4096 :=
    Nat.lt_of_le_of_lt (Nat.min_le_right _ _) (by norm_num)
  have hg : cidGrid data road (ix2 b s)
      = Scalar.select (padMask data (ix2 b s)) 4294967295#32 (clusterIds data road (ix2 b s)) := rfl
  rw [result_apply, flatOut_ix2, tokenWord_grid, hg]
  unfold outEntry
  rw [Cert.Embed.entry_eq emb hfin _ _ hw e hlt, Cert.ReferenceIdeal.RefValue.ref_apply data road emb b s e hlt]
  rfl

end Cert.Bridge

end
-- ==== Proof.lean ====
/-
  An embedding lookup through a road map: the proof of the certificate's claim.

  The kernel looks each token's cluster up in the road map on the host, replaces a padding token's cluster by −1, and
  inside the launch multiplies the table's two halves by the tokens' one-hot columns; the reference gathers the
  cluster's row of the table and zeroes it at a padding token. Over the extended reals, for a table of real numbers
  and a road map whose entries name table rows, the one-hot sum picks out exactly the gathered row, and nothing at −1.

  The three frames: the kernel's two are generated; the reference's is its generated run with the result dropped.
  The idealization rewrote nothing, so it is preserved trivially. The equivalence sets the kernel program's run, with
  its result named, beside the reference's run, and joins the two results entry by entry.
-/
import proofs.«428797_j50002009260273_3_alg».proof.Defs
import proofs.«428797_j50002009260273_3_alg».proof.Proof.Gen.Kernel
import proofs.«428797_j50002009260273_3_alg».proof.Proof.Gen.Kernel.Skeleton
import proofs.«428797_j50002009260273_3_alg».proof.Proof.Gen.Kernel.Launch
import proofs.«428797_j50002009260273_3_alg».proof.Proof.Gen.Kernel.Points
import proofs.«428797_j50002009260273_3_alg».proof.Proof.Gen.Kernel.Frame
import proofs.«428797_j50002009260273_3_alg».proof.Proof.Gen.KernelIdeal
import proofs.«428797_j50002009260273_3_alg».proof.Proof.Gen.KernelIdeal.Skeleton
import proofs.«428797_j50002009260273_3_alg».proof.Proof.Gen.KernelIdeal.Launch
import proofs.«428797_j50002009260273_3_alg».proof.Proof.Gen.KernelIdeal.Points
import proofs.«428797_j50002009260273_3_alg».proof.Proof.Gen.KernelIdeal.Frame
import proofs.«428797_j50002009260273_3_alg».proof.Proof.Gen.ReferenceIdeal
import proofs.«428797_j50002009260273_3_alg».proof.Proof.Gen.Pre_finite_inputs
import proofs.«428797_j50002009260273_3_alg».proof.Proof.Gen.ReferenceIdeal.Run
import proofs.«428797_j50002009260273_3_alg».proof.Proof.Gen.ReferenceIdeal.Read
import proofs.«428797_j50002009260273_3_alg».proof.Proof.PreDecode
import proofs.«428797_j50002009260273_3_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs, from memories that agree on the arguments, end with the same result: the kernel program's named
    result, which under the precondition is the reference's term entry by entry. -/
theorem algebraic : Cert.algebraic_KernelIdeal_ReferenceIdeal := by
  intro m ρ m' ρ' hpre hagree
  refine ⟨fun c => Cert.KernelIdeal.KRun.result m c, Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v18_eq]
  obtain ⟨hfin, hroad⟩ := Cert.PreDecode.decode _ _ _ (hpre c)
  exact (Cert.Bridge.result_eq _ _ _ hfin hroad).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
